-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩

abbrev nBuf : Space → Nat
  | .hbm => 97
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x1, .f32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S50000x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S50000x128, .f32⟩
  | .hbm, ⟨95, _⟩ => ⟨S1x128, .f32⟩
  | .hbm, ⟨96, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S50000x128, .f32⟩
  | 11 => ⟨S_, .f32⟩
  | 12 => ⟨S50000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S50000, .f32⟩
  | 24 => ⟨S50000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S1600000x128, .f32⟩
  | 55 => ⟨S1600000x128, .f32⟩
  | 56 => ⟨S_, .f32⟩
  | 57 => ⟨S50000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S_, .f32⟩
  | 90 => ⟨S1600000, .f32⟩
  | 91 => ⟨S50000, .f32⟩
  | 92 => ⟨S50000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S1600000x1, .f32⟩
  | 122 => ⟨S1600000x128, .f32⟩
  | 123 => ⟨S1600000x128, .f32⟩
  | 124 => ⟨S_, .f32⟩
  | 125 => ⟨S50000x128, .f32⟩
  | 126 => ⟨S_, .i32⟩
  | 127 => ⟨S1600000, .i32⟩
  | _ => ⟨S50000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call0_cst : Ref sig .tc := ⟨.hbm, 75, rfl⟩
abbrev main_call0_v0 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_c_23 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.MatProd.lean ====
/-
  The matrix product of a 50000×128 array with a 128×128 array, entry by entry over the extended reals, and the index
  arithmetic both linear regions of the kernel program share: which entries of the two operands the contraction pairs
  at contraction index `k`, for the whole arrays and for a 5000-row block.
-/
import proofs.«138615_j66597762891973_1_alg».proof.Proof.Gen.KernelIdeal
import Idealize.ShloMosaic.Lib.ValueIdx
import Idealize.ShloMosaic.PureOps.Ideal.Laws

noncomputable section

namespace Cert.KernelIdeal.MatProd

open Cert.KernelIdeal Idealize.ShloMosaic
open scoped BigOperators

/-- Row `i 0` of the left array, at column `k`. -/
abbrev lrow (i : S50000x128.Idx) (k : Fin 128) : S50000x128.Idx := fun a => match a with
  | ⟨0, _⟩ => ⟨(i 0).val, (i 0).isLt⟩
  | ⟨1, _⟩ => ⟨k.val, k.isLt⟩
/-- Row `k` of the right array, at column `i 1`. -/
abbrev rcol (i : S50000x128.Idx) (k : Fin 128) : S128x128.Idx := fun a => match a with
  | ⟨0, _⟩ => ⟨k.val, k.isLt⟩
  | ⟨1, _⟩ => ⟨(i 1).val, (i 1).isLt⟩

/-- The matrix product: entry `i` is the sum over `k` of row `i 0` of `x` against column `i 1` of `w`. -/
def prod (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (lrow i k) * w (rcol i k)

/-- The same two index functions inside a 5000-row block. -/
abbrev blkL (j : S5000x128.Idx) (k : Fin 128) : S5000x128.Idx := fun a => match a with
  | ⟨0, _⟩ => ⟨(j 0).val, (j 0).isLt⟩
  | ⟨1, _⟩ => ⟨k.val, k.isLt⟩
abbrev blkR (j : S5000x128.Idx) (k : Fin 128) : S128x128.Idx := fun a => match a with
  | ⟨0, _⟩ => ⟨k.val, k.isLt⟩
  | ⟨1, _⟩ => ⟨(j 1).val, (j 1).isLt⟩

theorem hz : (![0, 0] : Fin 2 → Nat) = fun _ => 0 := funext fun a => by fin_cases a <;> rfl

/-! The block product's operand indices, axis by axis: the left operand's row is the output's row and its column the
    contraction index; the right operand's row is the contraction index and its column the output's column. -/

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

end Cert.KernelIdeal.MatProd

end
-- ==== Proof.Linear1.lean ====
/-
  Region 0 of the idealized kernel program: the first layer's linear map, node features times the first weight matrix.
  The grid has ten points; point `t` reads rows `5000·t … 5000·t + 4999` of the left array and the whole 128×128 right
  array, and writes the same rows of the output. Read at the ideal values the body's matrix unit is the plain sum over
  the contracted axis (the casts to the narrow float format are the identity there, and the accumulator it starts from
  is zero), so entry `(r, q)` of the block is `∑ k, x (5000·t + r, k) · w (k, q)`: every block is the restriction of
  ONE function of the two arrays, their matrix product, and since the ten row blocks tile the 50000 rows the output
  array ends holding that product.
-/
import proofs.«138615_j66597762891973_1_alg».proof.Proof.Gen.KernelIdeal.Frame
import proofs.«138615_j66597762891973_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen Cert.KernelIdeal.MatProd Idealize.ShloMosaic Idealize.ShloMosaic.TcCoe Idealize.SL.Sem
open Idealize.ShloMosaic.ValueIdx
open scoped BigOperators

/-! ## The body's payload at an entry of the block -/

/-- At the ideal values the payload's entry `j` is the sum over the contracted axis of the row of the left block
    against the column of the right one. -/
theorem pay_apply (x0 : Vec Ideal S5000x128 .f32) (x1 : Vec Ideal S128x128 .f32) (j : S5000x128.Idx) :
    k0_pay1 (F := Ideal) x0 x1 j = ∑ k : Fin 128, x0 (blkL j k) * x1 (blkR j k) := by
  unfold k0_pay1
  show FloatOps.matmul dot_S5000x128_S128x128_S5000x128_1_0_0_1_n_n none (truncf (F := Ideal) (φ := .f32) .bf16 x0 _) (truncf (F := Ideal) (φ := .f32) .bf16 x1 _) (constant S5000x128 .f32 0x00000000#32) j = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = blkL j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((contrEquiv1 dot_S5000x128_S128x128_S5000x128_1_0_0_1_n_n 128 rfl rfl).symm k) = blkR j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

/-- The printed index maps over the grid: the left window moves with the output window down the rows, the right
    window stays, and the output's row-block index stays below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the matrix product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = prod (V c main_arg0) (V c main_arg2) (((cfg0.win 2).blk t).view.emb j)
  refine (pay_apply (iblk0 V c 0 t) (iblk0 V c 1 t) j).trans ?_
  unfold prod
  refine Finset.sum_congr rfl fun k _ => ?_
  have h0 : iblk0 V c 0 t (blkL j k) = V c main_arg0 (lrow (((cfg0.win 2).blk t).view.emb j) k) := by
    show V c main_arg0 (((cfg0.win 0).blk t).view.emb (blkL j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (blkR j k) = V c main_arg2 (rcol (((cfg0.win 2).blk t).view.emb j) k) := by
    show V c main_arg2 (((cfg0.win 1).blk t).view.emb (blkR j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The ten row blocks tile the array: row `r` is in the block of the point whose row-block index is `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the matrix product of the two arrays the region was entered with. -/
theorem array_eq (c : Dev nD) : (dat0 V c).arrAt 2 cfg0.N = prod (V c main_arg0) (V c main_arg2) :=
  (dat0 V c).arrAt_eq_of_cover 2 _ (fun t _ => flushed_eq V c t) cover

end Cert.KernelIdeal.Linear1

end
-- ==== Proof.Linear2.lean ====
/-
  Region 2 of the idealized kernel program: the second layer's linear map, the first layer's output times the second weight matrix.
  The grid has ten points; point `t` reads rows `5000·t … 5000·t + 4999` of the left array and the whole 128×128 right
  array, and writes the same rows of the output. Read at the ideal values the body's matrix unit is the plain sum over
  the contracted axis (the casts to the narrow float format are the identity there, and the accumulator it starts from
  is zero), so entry `(r, q)` of the block is `∑ k, x (5000·t + r, k) · w (k, q)`: every block is the restriction of
  ONE function of the two arrays, their matrix product, and since the ten row blocks tile the 50000 rows the output
  array ends holding that product.
-/
import proofs.«138615_j66597762891973_1_alg».proof.Proof.Gen.KernelIdeal.Frame
import proofs.«138615_j66597762891973_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen Cert.KernelIdeal.MatProd Idealize.ShloMosaic Idealize.ShloMosaic.TcCoe Idealize.SL.Sem
open Idealize.ShloMosaic.ValueIdx
open scoped BigOperators

/-! ## The body's payload at an entry of the block -/

/-- At the ideal values the payload's entry `j` is the sum over the contracted axis of the row of the left block
    against the column of the right one. -/
theorem pay_apply (x0 : Vec Ideal S5000x128 .f32) (x1 : Vec Ideal S128x128 .f32) (j : S5000x128.Idx) :
    k2_pay1 (F := Ideal) x0 x1 j = ∑ k : Fin 128, x0 (blkL j k) * x1 (blkR j k) := by
  unfold k2_pay1
  show FloatOps.matmul dot_S5000x128_S128x128_S5000x128_1_0_0_1_n_n none (truncf (F := Ideal) (φ := .f32) .bf16 (shapeCast S5000x128 x0 _) _) (truncf (F := Ideal) (φ := .f32) .bf16 x1 _) (constant S5000x128 .f32 0x00000000#32) j = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = blkL j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((contrEquiv1 dot_S5000x128_S128x128_S5000x128_1_0_0_1_n_n 128 rfl rfl).symm k) = blkR j k := funext fun a => Fin.ext (by
    match a with
    | ⟨0, _⟩ => exact (rhs_0 _ _).trans hk
    | ⟨1, _⟩ => exact rhs_1 _ _)
  rw [el, er]
  simp only [shapeCast_self]
  rfl

/-! ## From the blocks to the array -/

variable (V : (c : Dev nD) → (b : Ref sig .tc) → Buf (Elt Ideal) ((c : Thread nD τ).loc b))

/-- The printed index maps over the grid: the left window moves with the output window down the rows, the right
    window stays, and the output's row-block index stays below ten. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem idx_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the matrix product of the two arrays as the region finds them. -/
theorem flushed_eq (c : Dev nD) (t : Fin cfg2.N) :
    (dat2 V c).flushed 2 t = ((cfg2.win 2).blk t).view.read (Elt Ideal) (prod (V c main_v51) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (F := Ideal) (iblk2 V c 0 t) (iblk2 V c 1 t) j = prod (V c main_v51) (V c main_arg4) (((cfg2.win 2).blk t).view.emb j)
  refine (pay_apply (iblk2 V c 0 t) (iblk2 V c 1 t) j).trans ?_
  unfold prod
  refine Finset.sum_congr rfl fun k _ => ?_
  have h0 : iblk2 V c 0 t (blkL j k) = V c main_v51 (lrow (((cfg2.win 2).blk t).view.emb j) k) := by
    show V c main_v51 (((cfg2.win 0).blk t).view.emb (blkL j k)) = _
    refine congrArg (V c main_v51) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (blkR j k) = V c main_arg4 (rcol (((cfg2.win 2).blk t).view.emb j) k) := by
    show V c main_arg4 (((cfg2.win 1).blk t).view.emb (blkR j k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- The ten row blocks tile the array: row `r` is in the block of the point whose row-block index is `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the matrix product of the two arrays the region was entered with. -/
theorem array_eq (c : Dev nD) : (dat2 V c).arrAt 2 cfg2.N = prod (V c main_v51) (V c main_arg4) :=
  (dat2 V c).arrAt_eq_of_cover 2 _ (fun t _ => flushed_eq V c t) cover

end Cert.KernelIdeal.Linear2

end
-- ==== Proof.LayerSpec.lean ====
/-
  What one graph-convolution layer's combining region computes, as a function of whole arrays over the extended reals:
  at node `r` and lane `q`, the neighbour sum plus the node's transformed feature times its self-loop weight, plus the
  lane's bias; the first layer then clamps below at zero. The self-loop weights come as a 50000×1 column and the bias
  as a 1×128 row.
-/
import proofs.«138615_j66597762891973_1_alg».proof.Proof.Gen.KernelIdeal
import Idealize.ShloMosaic.PureOps.Ideal

noncomputable section

namespace Cert.KernelIdeal.LayerSpec

open Cert.KernelIdeal Idealize.ShloMosaic

/-- The column entry of node `i 0`. -/
abbrev selfIdx (i : S50000x128.Idx) : S50000x1.Idx := fun a => match a with
  | ⟨0, _⟩ => ⟨(i 0).val, (i 0).isLt⟩
  | ⟨1, _⟩ => ⟨0, Nat.one_pos⟩
/-- The row entry of lane `i 1`. -/
abbrev biasIdx (i : S50000x128.Idx) : S1x128.Idx := fun a => match a with
  | ⟨0, _⟩ => ⟨0, Nat.one_pos⟩
  | ⟨1, _⟩ => ⟨(i 1).val, (i 1).isLt⟩

/-- The second layer's output: neighbour sum plus weighted self term plus bias. -/
def layerLin (h s : (⟨S50000x128, .f32⟩ : BufTy).Contents (Elt Ideal)) (b : (⟨S1x128, .f32⟩ : BufTy).Contents (Elt Ideal))
    (w : (⟨S50000x1, .f32⟩ : BufTy).Contents (Elt Ideal)) : (⟨S50000x128, .f32⟩ : BufTy).Contents (Elt Ideal) :=
  fun i => (s i + h i * w (selfIdx i)) + b (biasIdx i)

/-- The first layer's output: the same, clamped below at zero. -/
def layerRelu (h s : (⟨S50000x128, .f32⟩ : BufTy).Contents (Elt Ideal)) (b : (⟨S1x128, .f32⟩ : BufTy).Contents (Elt Ideal))
    (w : (⟨S50000x1, .f32⟩ : BufTy).Contents (Elt Ideal)) : (⟨S50000x128, .f32⟩ : BufTy).Contents (Elt Ideal) :=
  fun i => max ((s i + h i * w (selfIdx i)) + b (biasIdx i)) (Ideal.ofBits .f32 0x00000000#32)

theorem hz : (![0, 0] : Fin 2 → Nat) = fun _ => 0 := funext fun a => by fin_cases a <;> rfl

end Cert.KernelIdeal.LayerSpec

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Combine1.lean ====
/-
  Region 1 of the idealized kernel program: the first layer's combining step with its clamp at zero.
  The grid has ten points; point `t` reads rows `5000·t … 5000·t + 4999` of the transformed features `h`, of the
  neighbour sum `s` and of the self-loop weights (a 50000×1 column), and the whole 1×128 bias row, and writes the same
  rows of the output: entry `(r, q)` of the block is `max ((s (r, q) + h (r, q) · w (r)) + b (q)) 0`, the column broadcast along the
  lanes and the bias row down the rows. Every block is thus the restriction of ONE function of the four arrays, and
  since the ten row blocks tile the 50000 rows the output array ends holding that function.
-/
import proofs.«138615_j66597762891973_1_alg».proof.Proof.Gen.KernelIdeal.Frame
import proofs.«138615_j66597762891973_1_alg».proof.Proof.LayerSpec
import proofs.«138615_j66597762891973_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine1

open Cert.KernelIdeal Cert.KernelIdeal.Gen Cert.KernelIdeal.LayerSpec Idealize.ShloMosaic Idealize.ShloMosaic.TcCoe Idealize.SL.Sem
open Idealize.ShloMosaic.ValueIdx

/-! ## The body's payload at an entry of the block -/

/-- At the ideal values the payload's entry `(p, q)`: the neighbour sum plus the transformed feature times the row's
    self-loop weight, plus the lane's bias, clamped below at zero. -/
theorem pay_apply (h s : Vec Ideal S5000x128 .f32) (b : Vec Ideal S1x128 .f32) (w : Vec Ideal S5000x1 .f32) (p : Fin 5000) (q : Fin 128) :
    k1_pay1 (F := Ideal) h s b w (ix2 p q)
      = max ((s (ix2 p q) + h (ix2 p q) * w (ix2 p (0 : Fin 1))) + b (ix2 (0 : Fin 1) q)) (Ideal.ofBits .f32 0x00000000#32) := by
  unfold k1_pay1
  rw [maximumf_apply, addf_apply, addf_apply, mulf_apply, broadcastTo_a1_ab_apply, broadcastTo_1b_ab_apply]
  simp only [shapeCast_self]
  rfl

/-! ## From the blocks to the array -/

variable (V : (c : Dev nD) → (b : Ref sig .tc) → Buf (Elt Ideal) ((c : Thread nD τ).loc b))

/-- The printed index maps over the grid: the three row-blocked input windows move with the output window down the
    rows, the bias window stays, and the output's row-block index stays below ten. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = win1_4.index t (0 : Fin 2)
    ∧ win1_3.index t (1 : Fin 2) = 0
    ∧ win1_4.index t (1 : Fin 2) = 0
    ∧ win1_4.index t (0 : Fin 2) ≤ 9 :=
  (by decide +kernel : ∀ t : Fin grid1.N, _)

/-- Every one of the ten row blocks is some point's. -/
theorem idx_onto : ∀ q : Fin 10, ∃ t : Fin cfg1.N, win1_4.index t = ![q.val, 0] :=
  (by decide +kernel : ∀ q : Fin 10, ∃ t : Fin grid1.N, win1_4.index t = ![q.val, 0])

/-- What point `t` writes back is block `t` of the layer's output function of the four arrays as the region finds them. -/
theorem flushed_eq (c : Dev nD) (t : Fin cfg1.N) :
    (dat1 V c).flushed 4 t = ((cfg1.win 4).blk t).view.read (Elt Ideal) (layerRelu (V c main_v31) (V c main_v49) (V c main_v50) (V c main_v30)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S5000x1) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (ix2 p q)
    = layerRelu (V c main_v31) (V c main_v49) (V c main_v50) (V c main_v30) (((cfg1.win 4).blk t).view.emb (ix2 p q))
  refine (pay_apply (iblk1 V c 0 t) (iblk1 V c 1 t) (iblk1 V c 2 t) (iblk1 V c 3 t) p q).trans ?_
  unfold layerRelu
  have h0 : iblk1 V c 0 t (ix2 p q) = V c main_v31 (((cfg1.win 4).blk t).view.emb (ix2 p q)) := by
    show V c main_v31 (((cfg1.win 0).blk t).view.emb (ix2 p q)) = _
    refine congrArg (V c main_v31) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : iblk1 V c 1 t (ix2 p q) = V c main_v49 (((cfg1.win 4).blk t).view.emb (ix2 p q)) := by
    show V c main_v49 (((cfg1.win 1).blk t).view.emb (ix2 p q)) = _
    refine congrArg (V c main_v49) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : iblk1 V c 2 t (ix2 (0 : Fin 1) q) = V c main_v50 (biasIdx (((cfg1.win 4).blk t).view.emb (ix2 p q))) := by
    show V c main_v50 (((cfg1.win 2).blk t).view.emb (ix2 (0 : Fin 1) q)) = _
    refine congrArg (V c main_v50) (funext fun a => Fin.ext ?_)
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : iblk1 V c 3 t (ix2 p (0 : Fin 1)) = V c main_v30 (selfIdx (((cfg1.win 4).blk t).view.emb (ix2 p q))) := by
    show V c main_v30 (((cfg1.win 3).blk t).view.emb (ix2 p (0 : Fin 1))) = _
    refine congrArg (V c main_v30) (funext fun a => Fin.ext ?_)
    match a with
    | ⟨0, _⟩ => show win1_3.index t (0 : Fin 2) * 5000 + 1 * p.val = win1_4.index t (0 : Fin 2) * 5000 + 1 * p.val; omega
    | ⟨1, _⟩ => show win1_3.index t (1 : Fin 2) * 1 + 1 * 0 = 0; omega
  rw [h0, h1, h2, h3]

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v51).slice (win1_4.rect t)).set ↔ _
  rw [View.set_slice_whole, Rect.mem_set_unit]
  exact Iff.rfl

/-- The ten row blocks tile the array: row `r` is in the block of the point whose row-block index is `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the layer's output function of the four arrays the region was entered with. -/
theorem array_eq (c : Dev nD) : (dat1 V c).arrAt 4 cfg1.N = layerRelu (V c main_v31) (V c main_v49) (V c main_v50) (V c main_v30) :=
  (dat1 V c).arrAt_eq_of_cover 4 _ (fun t _ => flushed_eq V c t) cover

end Cert.KernelIdeal.Combine1

end
-- ==== Proof.Combine2.lean ====
/-
  Region 3 of the idealized kernel program: the second layer's combining step (no clamp).
  The grid has ten points; point `t` reads rows `5000·t … 5000·t + 4999` of the transformed features `h`, of the
  neighbour sum `s` and of the self-loop weights (a 50000×1 column), and the whole 1×128 bias row, and writes the same
  rows of the output: entry `(r, q)` of the block is `(s (r, q) + h (r, q) · w (r)) + b (q)`, the column broadcast along the
  lanes and the bias row down the rows. Every block is thus the restriction of ONE function of the four arrays, and
  since the ten row blocks tile the 50000 rows the output array ends holding that function.
-/
import proofs.«138615_j66597762891973_1_alg».proof.Proof.Gen.KernelIdeal.Frame
import proofs.«138615_j66597762891973_1_alg».proof.Proof.LayerSpec
import proofs.«138615_j66597762891973_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine2

open Cert.KernelIdeal Cert.KernelIdeal.Gen Cert.KernelIdeal.LayerSpec Idealize.ShloMosaic Idealize.ShloMosaic.TcCoe Idealize.SL.Sem
open Idealize.ShloMosaic.ValueIdx

/-! ## The body's payload at an entry of the block -/

/-- At the ideal values the payload's entry `(p, q)`: the neighbour sum plus the transformed feature times the row's
    self-loop weight, plus the lane's bias. -/
theorem pay_apply (h s : Vec Ideal S5000x128 .f32) (b : Vec Ideal S1x128 .f32) (w : Vec Ideal S5000x1 .f32) (p : Fin 5000) (q : Fin 128) :
    k3_pay1 (F := Ideal) h s b w (ix2 p q)
      = (s (ix2 p q) + h (ix2 p q) * w (ix2 p (0 : Fin 1))) + b (ix2 (0 : Fin 1) q) := by
  unfold k3_pay1
  rw [addf_apply, addf_apply, mulf_apply, broadcastTo_a1_ab_apply, broadcastTo_1b_ab_apply]
  simp only [shapeCast_self]

/-! ## From the blocks to the array -/

variable (V : (c : Dev nD) → (b : Ref sig .tc) → Buf (Elt Ideal) ((c : Thread nD τ).loc b))

/-- The printed index maps over the grid: the three row-blocked input windows move with the output window down the
    rows, the bias window stays, and the output's row-block index stays below ten. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 2) = win3_4.index t (0 : Fin 2)
    ∧ win3_3.index t (1 : Fin 2) = 0
    ∧ win3_4.index t (1 : Fin 2) = 0
    ∧ win3_4.index t (0 : Fin 2) ≤ 9 :=
  (by decide +kernel : ∀ t : Fin grid3.N, _)

/-- Every one of the ten row blocks is some point's. -/
theorem idx_onto : ∀ q : Fin 10, ∃ t : Fin cfg3.N, win3_4.index t = ![q.val, 0] :=
  (by decide +kernel : ∀ q : Fin 10, ∃ t : Fin grid3.N, win3_4.index t = ![q.val, 0])

/-- What point `t` writes back is block `t` of the layer's output function of the four arrays as the region finds them. -/
theorem flushed_eq (c : Dev nD) (t : Fin cfg3.N) :
    (dat3 V c).flushed 4 t = ((cfg3.win 4).blk t).view.read (Elt Ideal) (layerLin (V c main_v52) (V c main_v70) (V c main_v71) (V c main_v30)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz, View.ld_unit_zero (S := S5000x1) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (ix2 p q)
    = layerLin (V c main_v52) (V c main_v70) (V c main_v71) (V c main_v30) (((cfg3.win 4).blk t).view.emb (ix2 p q))
  refine (pay_apply (iblk3 V c 0 t) (iblk3 V c 1 t) (iblk3 V c 2 t) (iblk3 V c 3 t) p q).trans ?_
  unfold layerLin
  have h0 : iblk3 V c 0 t (ix2 p q) = V c main_v52 (((cfg3.win 4).blk t).view.emb (ix2 p q)) := by
    show V c main_v52 (((cfg3.win 0).blk t).view.emb (ix2 p q)) = _
    refine congrArg (V c main_v52) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : iblk3 V c 1 t (ix2 p q) = V c main_v70 (((cfg3.win 4).blk t).view.emb (ix2 p q)) := by
    show V c main_v70 (((cfg3.win 1).blk t).view.emb (ix2 p q)) = _
    refine congrArg (V c main_v70) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h2 : iblk3 V c 2 t (ix2 (0 : Fin 1) q) = V c main_v71 (biasIdx (((cfg3.win 4).blk t).view.emb (ix2 p q))) := by
    show V c main_v71 (((cfg3.win 2).blk t).view.emb (ix2 (0 : Fin 1) q)) = _
    refine congrArg (V c main_v71) (funext fun a => Fin.ext ?_)
    match a with
    | ⟨0, _⟩ => show win3_2.index t (0 : Fin 2) * 1 + 1 * 0 = 0; omega
    | ⟨1, _⟩ => show win3_2.index t (1 : Fin 2) * 128 + 1 * q.val = win3_4.index t (1 : Fin 2) * 128 + 1 * q.val; omega
  have h3 : iblk3 V c 3 t (ix2 p (0 : Fin 1)) = V c main_v30 (selfIdx (((cfg3.win 4).blk t).view.emb (ix2 p q))) := by
    show V c main_v30 (((cfg3.win 3).blk t).view.emb (ix2 p (0 : Fin 1))) = _
    refine congrArg (V c main_v30) (funext fun a => Fin.ext ?_)
    match a with
    | ⟨0, _⟩ => show win3_3.index t (0 : Fin 2) * 5000 + 1 * p.val = win3_4.index t (0 : Fin 2) * 5000 + 1 * p.val; omega
    | ⟨1, _⟩ => show win3_3.index t (1 : Fin 2) * 1 + 1 * 0 = 0; omega
  rw [h0, h1, h2, h3]

/-- An index of the output array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v72).slice (win3_4.rect t)).set ↔ _
  rw [View.set_slice_whole, Rect.mem_set_unit]
  exact Iff.rfl

/-- The ten row blocks tile the array: row `r` is in the block of the point whose row-block index is `r / 5000`. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region: the layer's output function of the four arrays the region was entered with. -/
theorem array_eq (c : Dev nD) : (dat3 V c).arrAt 4 cfg3.N = layerLin (V c main_v52) (V c main_v70) (V c main_v71) (V c main_v30) :=
  (dat3 V c).arrAt_eq_of_cover 4 _ (fun t _ => flushed_eq V c t) cover

end Cert.KernelIdeal.Combine2

end
-- ==== Proof.Values.lean ====
/-
  The idealized kernel program's buffers at each boundary of its run, identified with the reference's stages.

  The program alternates host stretches with four kernel regions. Both programs normalise the edge endpoints the same
  way, count degrees by the same scatter-add, take the same reciprocal square roots and gather them per edge, so the
  edge weights, the self-loop weights and (given equal transformed features) the neighbour sums are the SAME host
  operations applied to equal arguments: they are carried as whole functions and never opened. What is compared entry
  by entry is only what the regions compute: a region's linear map is the reference's `dot_general` (both are the sum
  over the contracted axis), and a region's combining step is the reference's chain of broadcasts, product and sums
  read at an index (the self-loop column and the bias row are reshapes on the kernel side, broadcasts on the
  reference's). The reference computes the degree normalisation once per layer; the two copies are one function of the
  edge list.
-/
import proofs.«138615_j66597762891973_1_alg».proof.Proof.Gen.KernelIdeal.Frame
import proofs.«138615_j66597762891973_1_alg».proof.Proof.Gen.ReferenceIdeal.Read
import proofs.«138615_j66597762891973_1_alg».proof.Proof.Linear1
import proofs.«138615_j66597762891973_1_alg».proof.Proof.Linear2
import proofs.«138615_j66597762891973_1_alg».proof.Proof.Combine1
import proofs.«138615_j66597762891973_1_alg».proof.Proof.Combine2
import Idealize.ShloMosaic.Lib.StableHlo.Run
import Idealize.ShloMosaic.Lib.Pipeline.Value

set_option maxRecDepth 16384

noncomputable section

namespace Cert.KernelIdeal.Values

open Cert.KernelIdeal Cert.KernelIdeal.Gen Idealize.ShloMosaic Idealize.ShloMosaic.TcCoe Idealize.SL.Sem
open Idealize.ShloMosaic.StableHlo

/-! ## The two sides' arithmetic, as functions of arrays -/

section Algebra

variable (x0 : (⟨S50000x128, .f32⟩ : BufTy).Contents (Elt Ideal)) (e : (⟨S2x1600000, .i32⟩ : BufTy).Contents (Elt Ideal))
  (x2 x4 : (⟨S128x128, .f32⟩ : BufTy).Contents (Elt Ideal)) (x3 x5 : (⟨S128, .f32⟩ : BufTy).Contents (Elt Ideal))

/-- The first layer's linear map is the reference's `dot_general`: both are the sum over the contracted axis. -/
theorem prod_eq_first : MatProd.prod x0 x2 = Cert.ReferenceIdeal.Read.val_main_v4 (F := Ideal) x0 x2 := by
  funext i
  rw [Cert.ReferenceIdeal.Read.val_main_v4_apply]
  rfl

/-- The second layer's linear map, of the first layer's output. -/
theorem prod_eq_second : MatProd.prod (Cert.ReferenceIdeal.Read.val_main_v56 (F := Ideal) x0 e x2 x3) x4 = Cert.ReferenceIdeal.Read.val_main_v57 (F := Ideal) x0 e x2 x3 x4 := by
  funext i
  rw [Cert.ReferenceIdeal.Read.val_main_v57_apply]
  rfl

/-- The reference normalises the degrees once per layer: the two edge-weight vectors are one function of the edges. -/
theorem edge_weight_eq : Cert.ReferenceIdeal.Read.val_main_v36 (F := Ideal) e = Cert.ReferenceIdeal.Read.val_main_v89 (F := Ideal) e := rfl

/-- Likewise the two self-loop weight vectors. -/
theorem self_weight_eq : Cert.ReferenceIdeal.Read.val_main_v48 (F := Ideal) e = Cert.ReferenceIdeal.Read.val_main_v101 (F := Ideal) e := rfl

/-- The first layer's combining step, on the reference's stages: the self-loop column is the reshaped weight vector and
    the bias row the reshaped bias, which the reference reaches by broadcasts. -/
theorem layer1_eq (h s : (⟨S50000x128, .f32⟩ : BufTy).Contents (Elt Ideal)) (b : (⟨S1x128, .f32⟩ : BufTy).Contents (Elt Ideal)) (w : (⟨S50000x1, .f32⟩ : BufTy).Contents (Elt Ideal))
    (hh : h = Cert.ReferenceIdeal.Read.val_main_v4 (F := Ideal) x0 x2) (hs : s = Cert.ReferenceIdeal.Read.val_main_v47 (F := Ideal) x0 e x2)
    (hb : b = shapeCast S1x128 x3 shapeCasts_S128_S1x128)
    (hw : w = shapeCast S50000x1 (Cert.ReferenceIdeal.Read.val_main_v48 (F := Ideal) e) shapeCasts_S50000_S50000x1) :
    LayerSpec.layerRelu h s b w = Cert.ReferenceIdeal.Read.val_main_v56 (F := Ideal) x0 e x2 x3 := by
  subst hh hs hb hw
  funext i
  unfold LayerSpec.layerRelu
  rw [Cert.ReferenceIdeal.Read.val_main_v56_apply, Cert.ReferenceIdeal.Read.val_main_v55_apply, Cert.ReferenceIdeal.Read.val_main_v52_apply, Cert.ReferenceIdeal.Read.val_main_v51_apply, Cert.ReferenceIdeal.Read.val_main_v50_apply,
    Cert.ReferenceIdeal.Read.val_main_v49_apply, Cert.ReferenceIdeal.Read.val_main_v54_apply, Cert.ReferenceIdeal.Read.val_main_v53_apply, Cert.ReferenceIdeal.Read.val_main_call0_v0_apply, Cert.ReferenceIdeal.Read.val_main_call0_cst_apply]
  have hcol : shapeCast S50000x1 (Cert.ReferenceIdeal.Read.val_main_v48 (F := Ideal) e) shapeCasts_S50000_S50000x1 (LayerSpec.selfIdx i)
      = Cert.ReferenceIdeal.Read.val_main_v48 (F := Ideal) e (Cert.ReferenceIdeal.Read.idx_main_v49 (Cert.ReferenceIdeal.Read.idx_main_v50 i)) :=
    shapeCast_apply _ _ _ _ (by
      rw [Shape.rowMajor_val_two, Shape.rowMajor_val_one]
      show (i 0).val = (i 0).val * 1 + 0
      omega)
  have hrow : shapeCast S1x128 x3 shapeCasts_S128_S1x128 (LayerSpec.biasIdx i) = x3 (Cert.ReferenceIdeal.Read.idx_main_v53 (Cert.ReferenceIdeal.Read.idx_main_v54 i)) :=
    shapeCast_apply _ _ _ _ (by
      rw [Shape.rowMajor_val_two, Shape.rowMajor_val_one]
      show (i 1).val = 0 * 128 + (i 1).val
      omega)
  rw [hcol, hrow]
  rfl

/-- The second layer's combining step, on the reference's stages. -/
theorem layer2_eq (h s : (⟨S50000x128, .f32⟩ : BufTy).Contents (Elt Ideal)) (b : (⟨S1x128, .f32⟩ : BufTy).Contents (Elt Ideal)) (w : (⟨S50000x1, .f32⟩ : BufTy).Contents (Elt Ideal))
    (hh : h = Cert.ReferenceIdeal.Read.val_main_v57 (F := Ideal) x0 e x2 x3 x4) (hs : s = Cert.ReferenceIdeal.Read.val_main_v100 (F := Ideal) x0 e x2 x3 x4)
    (hb : b = shapeCast S1x128 x5 shapeCasts_S128_S1x128)
    (hw : w = shapeCast S50000x1 (Cert.ReferenceIdeal.Read.val_main_v101 (F := Ideal) e) shapeCasts_S50000_S50000x1) :
    LayerSpec.layerLin h s b w = Cert.ReferenceIdeal.Read.val_main_v108 (F := Ideal) x0 e x2 x3 x4 x5 := by
  subst hh hs hb hw
  funext i
  unfold LayerSpec.layerLin
  rw [Cert.ReferenceIdeal.Read.val_main_v108_apply, Cert.ReferenceIdeal.Read.val_main_v105_apply, Cert.ReferenceIdeal.Read.val_main_v104_apply, Cert.ReferenceIdeal.Read.val_main_v103_apply,
    Cert.ReferenceIdeal.Read.val_main_v102_apply, Cert.ReferenceIdeal.Read.val_main_v107_apply, Cert.ReferenceIdeal.Read.val_main_v106_apply]
  have hcol : shapeCast S50000x1 (Cert.ReferenceIdeal.Read.val_main_v101 (F := Ideal) e) shapeCasts_S50000_S50000x1 (LayerSpec.selfIdx i)
      = Cert.ReferenceIdeal.Read.val_main_v101 (F := Ideal) e (Cert.ReferenceIdeal.Read.idx_main_v102 (Cert.ReferenceIdeal.Read.idx_main_v103 i)) :=
    shapeCast_apply _ _ _ _ (by
      rw [Shape.rowMajor_val_two, Shape.rowMajor_val_one]
      show (i 0).val = (i 0).val * 1 + 0
      omega)
  have hrow : shapeCast S1x128 x5 shapeCasts_S128_S1x128 (LayerSpec.biasIdx i) = x5 (Cert.ReferenceIdeal.Read.idx_main_v106 (Cert.ReferenceIdeal.Read.idx_main_v107 i)) :=
    shapeCast_apply _ _ _ _ (by
      rw [Shape.rowMajor_val_two, Shape.rowMajor_val_one]
      show (i 1).val = 0 * 128 + (i 1).val
      omega)
  rw [hcol, hrow]
  rfl

end Algebra

/-! ## The host stretches, from an arbitrary valuation of the buffers

Each stretch is read once from buffer contents `W` that stay a variable: what a buffer holds after the stretch is the
stretch's operations applied to `W` at the buffers they read, and a buffer no operation writes keeps `W`'s contents. -/

section Host

variable (W : Valuation τ sig (Elt Ideal))

/-! ### The first stretch: edge endpoints, degrees, edge and self-loop weights -/

theorem host0_arg0 : after hostOps0 W (Proc.devRef .tc main_arg0) = W (Proc.devRef .tc main_arg0) := by
  dsimp only [hostOps0]; after_results_simp <;> rfl
theorem host0_arg2 : after hostOps0 W (Proc.devRef .tc main_arg2) = W (Proc.devRef .tc main_arg2) := by
  dsimp only [hostOps0]; after_results_simp <;> rfl
theorem host0_arg3 : after hostOps0 W (Proc.devRef .tc main_arg3) = W (Proc.devRef .tc main_arg3) := by
  dsimp only [hostOps0]; after_results_simp <;> rfl
theorem host0_arg4 : after hostOps0 W (Proc.devRef .tc main_arg4) = W (Proc.devRef .tc main_arg4) := by
  dsimp only [hostOps0]; after_results_simp <;> rfl
theorem host0_arg5 : after hostOps0 W (Proc.devRef .tc main_arg5) = W (Proc.devRef .tc main_arg5) := by
  dsimp only [hostOps0]; after_results_simp <;> rfl

set_option maxHeartbeats 4000000 in
/-- The source endpoints. -/
theorem host0_src : after hostOps0 W (Proc.devRef .tc main_v1) = Cert.ReferenceIdeal.Read.val_main_v1 (F := Ideal) (W (Proc.devRef .tc main_arg1)) := by
  dsimp only [hostOps0]; after_results_simp <;> rfl
set_option maxHeartbeats 4000000 in
/-- The destination endpoints. -/
theorem host0_dst : after hostOps0 W (Proc.devRef .tc main_v3) = Cert.ReferenceIdeal.Read.val_main_v3 (F := Ideal) (W (Proc.devRef .tc main_arg1)) := by
  dsimp only [hostOps0]; after_results_simp <;> rfl
set_option maxHeartbeats 4000000 in
/-- The edge weights: the reciprocal square roots of the degrees gathered at both endpoints and multiplied. -/
theorem host0_ew : after hostOps0 W (Proc.devRef .tc main_v28) = Cert.ReferenceIdeal.Read.val_main_v36 (F := Ideal) (W (Proc.devRef .tc main_arg1)) := by
  dsimp only [hostOps0]; after_results_simp <;> rfl
set_option maxHeartbeats 4000000 in
/-- The self-loop weights, reshaped to a column. -/
theorem host0_sw : after hostOps0 W (Proc.devRef .tc main_v30)
    = shapeCast S50000x1 (Cert.ReferenceIdeal.Read.val_main_v48 (F := Ideal) (W (Proc.devRef .tc main_arg1))) shapeCasts_S50000_S50000x1 := by
  dsimp only [hostOps0]; after_results_simp <;> rfl

/-! ### The second stretch: the first layer's neighbour sum and bias row -/

theorem host1_v31 : after hostOps1 W (Proc.devRef .tc main_v31) = W (Proc.devRef .tc main_v31) := by
  dsimp only [hostOps1]; after_results_simp <;> rfl
theorem host1_arg4 : after hostOps1 W (Proc.devRef .tc main_arg4) = W (Proc.devRef .tc main_arg4) := by
  dsimp only [hostOps1]; after_results_simp <;> rfl
theorem host1_arg5 : after hostOps1 W (Proc.devRef .tc main_arg5) = W (Proc.devRef .tc main_arg5) := by
  dsimp only [hostOps1]; after_results_simp <;> rfl
theorem host1_v1 : after hostOps1 W (Proc.devRef .tc main_v1) = W (Proc.devRef .tc main_v1) := by
  dsimp only [hostOps1]; after_results_simp <;> rfl
theorem host1_v3 : after hostOps1 W (Proc.devRef .tc main_v3) = W (Proc.devRef .tc main_v3) := by
  dsimp only [hostOps1]; after_results_simp <;> rfl
theorem host1_v28 : after hostOps1 W (Proc.devRef .tc main_v28) = W (Proc.devRef .tc main_v28) := by
  dsimp only [hostOps1]; after_results_simp <;> rfl
theorem host1_v30 : after hostOps1 W (Proc.devRef .tc main_v30) = W (Proc.devRef .tc main_v30) := by
  dsimp only [hostOps1]; after_results_simp <;> rfl

set_option maxHeartbeats 4000000 in
/-- The neighbour sum: the reference's gather, product and scatter-add, of equal arguments. -/
theorem host1_agg (x0 : (⟨S50000x128, .f32⟩ : BufTy).Contents (Elt Ideal)) (e : (⟨S2x1600000, .i32⟩ : BufTy).Contents (Elt Ideal)) (x2 : (⟨S128x128, .f32⟩ : BufTy).Contents (Elt Ideal))
    (hh : W (Proc.devRef .tc main_v31) = Cert.ReferenceIdeal.Read.val_main_v4 (F := Ideal) x0 x2)
    (hs : W (Proc.devRef .tc main_v1) = Cert.ReferenceIdeal.Read.val_main_v1 (F := Ideal) e) (hd : W (Proc.devRef .tc main_v3) = Cert.ReferenceIdeal.Read.val_main_v3 (F := Ideal) e)
    (hw : W (Proc.devRef .tc main_v28) = Cert.ReferenceIdeal.Read.val_main_v36 (F := Ideal) e) :
    after hostOps1 W (Proc.devRef .tc main_v49) = Cert.ReferenceIdeal.Read.val_main_v47 (F := Ideal) x0 e x2 := by
  dsimp only [hostOps1]; after_results_simp
  rw [hh, hs, hd, hw]
  rfl
/-- The bias, reshaped to a row. -/
theorem host1_bias : after hostOps1 W (Proc.devRef .tc main_v50) = shapeCast S1x128 (W (Proc.devRef .tc main_arg3)) shapeCasts_S128_S1x128 := by
  dsimp only [hostOps1]; after_results_simp <;> rfl

/-! ### The third stretch: the second layer's neighbour sum and bias row -/

theorem host3_v52 : after hostOps3 W (Proc.devRef .tc main_v52) = W (Proc.devRef .tc main_v52) := by
  dsimp only [hostOps3]; after_results_simp <;> rfl
theorem host3_v30 : after hostOps3 W (Proc.devRef .tc main_v30) = W (Proc.devRef .tc main_v30) := by
  dsimp only [hostOps3]; after_results_simp <;> rfl

set_option maxHeartbeats 4000000 in
theorem host3_agg (x0 : (⟨S50000x128, .f32⟩ : BufTy).Contents (Elt Ideal)) (e : (⟨S2x1600000, .i32⟩ : BufTy).Contents (Elt Ideal)) (x2 x4 : (⟨S128x128, .f32⟩ : BufTy).Contents (Elt Ideal)) (x3 : (⟨S128, .f32⟩ : BufTy).Contents (Elt Ideal))
    (hh : W (Proc.devRef .tc main_v52) = Cert.ReferenceIdeal.Read.val_main_v57 (F := Ideal) x0 e x2 x3 x4)
    (hs : W (Proc.devRef .tc main_v1) = Cert.ReferenceIdeal.Read.val_main_v1 (F := Ideal) e) (hd : W (Proc.devRef .tc main_v3) = Cert.ReferenceIdeal.Read.val_main_v3 (F := Ideal) e)
    (hw : W (Proc.devRef .tc main_v28) = Cert.ReferenceIdeal.Read.val_main_v89 (F := Ideal) e) :
    after hostOps3 W (Proc.devRef .tc main_v70) = Cert.ReferenceIdeal.Read.val_main_v100 (F := Ideal) x0 e x2 x3 x4 := by
  dsimp only [hostOps3]; after_results_simp
  rw [hh, hs, hd, hw]
  rfl
theorem host3_bias : after hostOps3 W (Proc.devRef .tc main_v71) = shapeCast S1x128 (W (Proc.devRef .tc main_arg5)) shapeCasts_S128_S1x128 := by
  dsimp only [hostOps3]; after_results_simp <;> rfl

end Host

/-! ## The run: each buffer the later items read, at each boundary -/

variable (m : (ℓ : Loc nD τ sig) → Buf (Elt Ideal) ℓ) (ρ : Dev nD → PrngReg) (c : Dev nD)

/-- The six argument arrays as launched. -/
abbrev a0 : (⟨S50000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S128x128, .f32⟩ : BufTy).Contents (Elt Ideal) := m ((c : Thread nD τ).loc main_arg2)
abbrev a3 : (⟨S128, .f32⟩ : BufTy).Contents (Elt Ideal) := m ((c : Thread nD τ).loc main_arg3)
abbrev a4 : (⟨S128x128, .f32⟩ : BufTy).Contents (Elt Ideal) := m ((c : Thread nD τ).loc main_arg4)
abbrev a5 : (⟨S128, .f32⟩ : BufTy).Contents (Elt Ideal) := m ((c : Thread nD τ).loc main_arg5)

/-! ### Boundary 1: after the first host stretch -/

theorem arg0_W1 : W1 m ρ c (Proc.devRef .tc main_arg0) = a0 m c := host0_arg0 (W0 m ρ c)
theorem arg2_W1 : W1 m ρ c (Proc.devRef .tc main_arg2) = a2 m c := host0_arg2 (W0 m ρ c)
theorem arg3_W1 : W1 m ρ c (Proc.devRef .tc main_arg3) = a3 m c := host0_arg3 (W0 m ρ c)
theorem arg4_W1 : W1 m ρ c (Proc.devRef .tc main_arg4) = a4 m c := host0_arg4 (W0 m ρ c)
theorem arg5_W1 : W1 m ρ c (Proc.devRef .tc main_arg5) = a5 m c := host0_arg5 (W0 m ρ c)
theorem src_W1 : W1 m ρ c (Proc.devRef .tc main_v1) = Cert.ReferenceIdeal.Read.val_main_v1 (F := Ideal) (a1 m c) := host0_src (W0 m ρ c)
theorem dst_W1 : W1 m ρ c (Proc.devRef .tc main_v3) = Cert.ReferenceIdeal.Read.val_main_v3 (F := Ideal) (a1 m c) := host0_dst (W0 m ρ c)
theorem ew_W1 : W1 m ρ c (Proc.devRef .tc main_v28) = Cert.ReferenceIdeal.Read.val_main_v36 (F := Ideal) (a1 m c) := host0_ew (W0 m ρ c)
theorem sw_W1 : W1 m ρ c (Proc.devRef .tc main_v30)
    = shapeCast S50000x1 (Cert.ReferenceIdeal.Read.val_main_v48 (F := Ideal) (a1 m c)) shapeCasts_S50000_S50000x1 := host0_sw (W0 m ρ c)

/-! ### Boundary 2: after region 0 (the first linear map) -/

theorem lin1_W2 : W2 m ρ c (Proc.devRef .tc main_v31) = Cert.ReferenceIdeal.Read.val_main_v4 (F := Ideal) (a0 m c) (a2 m c) := by
  refine (W2_arr m ρ c 2).trans ?_
  refine (Linear1.array_eq (V1 m ρ) c).trans ?_
  rw [show V1 m ρ c main_arg0 = a0 m c from arg0_W1 m ρ c, show V1 m ρ c main_arg2 = a2 m c from arg2_W1 m ρ c]
  exact prod_eq_first _ _
theorem arg3_W2 : W2 m ρ c (Proc.devRef .tc main_arg3) = a3 m c := (W2_of_ne m ρ c main_arg3 (by decide)).trans (arg3_W1 m ρ c)
theorem arg4_W2 : W2 m ρ c (Proc.devRef .tc main_arg4) = a4 m c := (W2_of_ne m ρ c main_arg4 (by decide)).trans (arg4_W1 m ρ c)
theorem arg5_W2 : W2 m ρ c (Proc.devRef .tc main_arg5) = a5 m c := (W2_of_ne m ρ c main_arg5 (by decide)).trans (arg5_W1 m ρ c)
theorem src_W2 : W2 m ρ c (Proc.devRef .tc main_v1) = Cert.ReferenceIdeal.Read.val_main_v1 (F := Ideal) (a1 m c) := (W2_of_ne m ρ c main_v1 (by decide)).trans (src_W1 m ρ c)
theorem dst_W2 : W2 m ρ c (Proc.devRef .tc main_v3) = Cert.ReferenceIdeal.Read.val_main_v3 (F := Ideal) (a1 m c) := (W2_of_ne m ρ c main_v3 (by decide)).trans (dst_W1 m ρ c)
theorem ew_W2 : W2 m ρ c (Proc.devRef .tc main_v28) = Cert.ReferenceIdeal.Read.val_main_v36 (F := Ideal) (a1 m c) := (W2_of_ne m ρ c main_v28 (by decide)).trans (ew_W1 m ρ c)
theorem sw_W2 : W2 m ρ c (Proc.devRef .tc main_v30)
    = shapeCast S50000x1 (Cert.ReferenceIdeal.Read.val_main_v48 (F := Ideal) (a1 m c)) shapeCasts_S50000_S50000x1 := (W2_of_ne m ρ c main_v30 (by decide)).trans (sw_W1 m ρ c)

/-! ### Boundary 3: after the second host stretch -/

theorem lin1_W3 : W3 m ρ c (Proc.devRef .tc main_v31) = Cert.ReferenceIdeal.Read.val_main_v4 (F := Ideal) (a0 m c) (a2 m c) := (host1_v31 (W2 m ρ c)).trans (lin1_W2 m ρ c)
theorem arg4_W3 : W3 m ρ c (Proc.devRef .tc main_arg4) = a4 m c := (host1_arg4 (W2 m ρ c)).trans (arg4_W2 m ρ c)
theorem arg5_W3 : W3 m ρ c (Proc.devRef .tc main_arg5) = a5 m c := (host1_arg5 (W2 m ρ c)).trans (arg5_W2 m ρ c)
theorem src_W3 : W3 m ρ c (Proc.devRef .tc main_v1) = Cert.ReferenceIdeal.Read.val_main_v1 (F := Ideal) (a1 m c) := (host1_v1 (W2 m ρ c)).trans (src_W2 m ρ c)
theorem dst_W3 : W3 m ρ c (Proc.devRef .tc main_v3) = Cert.ReferenceIdeal.Read.val_main_v3 (F := Ideal) (a1 m c) := (host1_v3 (W2 m ρ c)).trans (dst_W2 m ρ c)
theorem ew_W3 : W3 m ρ c (Proc.devRef .tc main_v28) = Cert.ReferenceIdeal.Read.val_main_v36 (F := Ideal) (a1 m c) := (host1_v28 (W2 m ρ c)).trans (ew_W2 m ρ c)
theorem sw_W3 : W3 m ρ c (Proc.devRef .tc main_v30)
    = shapeCast S50000x1 (Cert.ReferenceIdeal.Read.val_main_v48 (F := Ideal) (a1 m c)) shapeCasts_S50000_S50000x1 := (host1_v30 (W2 m ρ c)).trans (sw_W2 m ρ c)
/-- The first layer's neighbour sum. -/
theorem agg1_W3 : W3 m ρ c (Proc.devRef .tc main_v49) = Cert.ReferenceIdeal.Read.val_main_v47 (F := Ideal) (a0 m c) (a1 m c) (a2 m c) :=
  host1_agg (W2 m ρ c) _ _ _ (lin1_W2 m ρ c) (src_W2 m ρ c) (dst_W2 m ρ c) (ew_W2 m ρ c)
/-- The first layer's bias, as a row. -/
theorem bias1_W3 : W3 m ρ c (Proc.devRef .tc main_v50) = shapeCast S1x128 (a3 m c) shapeCasts_S128_S1x128 :=
  (host1_bias (W2 m ρ c)).trans (congrArg (shapeCast S1x128 · shapeCasts_S128_S1x128) (arg3_W2 m ρ c))

/-! ### Boundary 4: after region 1 (the first layer's output) -/

theorem out1_W4 : W4 m ρ c (Proc.devRef .tc main_v51) = Cert.ReferenceIdeal.Read.val_main_v56 (F := Ideal) (a0 m c) (a1 m c) (a2 m c) (a3 m c) := by
  refine (W4_arr m ρ c 4).trans ?_
  refine (Combine1.array_eq (V3 m ρ) c).trans ?_
  exact layer1_eq (a0 m c) (a1 m c) (a2 m c) (a3 m c) _ _ _ _ (lin1_W3 m ρ c) (agg1_W3 m ρ c) (bias1_W3 m ρ c) (sw_W3 m ρ c)
theorem arg4_W4 : W4 m ρ c (Proc.devRef .tc main_arg4) = a4 m c := (W4_of_ne m ρ c main_arg4 (by decide)).trans (arg4_W3 m ρ c)
theorem arg5_W4 : W4 m ρ c (Proc.devRef .tc main_arg5) = a5 m c := (W4_of_ne m ρ c main_arg5 (by decide)).trans (arg5_W3 m ρ c)
theorem src_W4 : W4 m ρ c (Proc.devRef .tc main_v1) = Cert.ReferenceIdeal.Read.val_main_v1 (F := Ideal) (a1 m c) := (W4_of_ne m ρ c main_v1 (by decide)).trans (src_W3 m ρ c)
theorem dst_W4 : W4 m ρ c (Proc.devRef .tc main_v3) = Cert.ReferenceIdeal.Read.val_main_v3 (F := Ideal) (a1 m c) := (W4_of_ne m ρ c main_v3 (by decide)).trans (dst_W3 m ρ c)
theorem ew_W4 : W4 m ρ c (Proc.devRef .tc main_v28) = Cert.ReferenceIdeal.Read.val_main_v36 (F := Ideal) (a1 m c) := (W4_of_ne m ρ c main_v28 (by decide)).trans (ew_W3 m ρ c)
/-- The self-loop column is one of region 1's input windows: the region leaves it as entered. -/
theorem sw_W4 : W4 m ρ c (Proc.devRef .tc main_v30)
    = shapeCast S50000x1 (Cert.ReferenceIdeal.Read.val_main_v48 (F := Ideal) (a1 m c)) shapeCasts_S50000_S50000x1 :=
  ((W4_arr m ρ c 3).trans (((dat1 (V3 m ρ) c).arrAt_in 3 rfl _).trans (A_eq1 (V3 m ρ) c 3))).trans (sw_W3 m ρ c)

/-! ### Boundary 5: after region 2 (the second linear map) -/

theorem lin2_W5 : W5 m ρ c (Proc.devRef .tc main_v52)
    = Cert.ReferenceIdeal.Read.val_main_v57 (F := Ideal) (a0 m c) (a1 m c) (a2 m c) (a3 m c) (a4 m c) := by
  refine (W5_arr m ρ c 2).trans ?_
  refine (Linear2.array_eq (V4 m ρ) c).trans ?_
  rw [show V4 m ρ c main_v51 = _ from out1_W4 m ρ c, show V4 m ρ c main_arg4 = a4 m c from arg4_W4 m ρ c]
  exact prod_eq_second _ _ _ _ _
theorem arg5_W5 : W5 m ρ c (Proc.devRef .tc main_arg5) = a5 m c := (W5_of_ne m ρ c main_arg5 (by decide)).trans (arg5_W4 m ρ c)
theorem src_W5 : W5 m ρ c (Proc.devRef .tc main_v1) = Cert.ReferenceIdeal.Read.val_main_v1 (F := Ideal) (a1 m c) := (W5_of_ne m ρ c main_v1 (by decide)).trans (src_W4 m ρ c)
theorem dst_W5 : W5 m ρ c (Proc.devRef .tc main_v3) = Cert.ReferenceIdeal.Read.val_main_v3 (F := Ideal) (a1 m c) := (W5_of_ne m ρ c main_v3 (by decide)).trans (dst_W4 m ρ c)
theorem ew_W5 : W5 m ρ c (Proc.devRef .tc main_v28) = Cert.ReferenceIdeal.Read.val_main_v89 (F := Ideal) (a1 m c) :=
  ((W5_of_ne m ρ c main_v28 (by decide)).trans (ew_W4 m ρ c)).trans (edge_weight_eq _)
theorem sw_W5 : W5 m ρ c (Proc.devRef .tc main_v30)
    = shapeCast S50000x1 (Cert.ReferenceIdeal.Read.val_main_v101 (F := Ideal) (a1 m c)) shapeCasts_S50000_S50000x1 :=
  ((W5_of_ne m ρ c main_v30 (by decide)).trans (sw_W4 m ρ c)).trans (congrArg (shapeCast S50000x1 · shapeCasts_S50000_S50000x1) (self_weight_eq _))

/-! ### Boundary 6: after the third host stretch -/

theorem lin2_W6 : W6 m ρ c (Proc.devRef .tc main_v52)
    = Cert.ReferenceIdeal.Read.val_main_v57 (F := Ideal) (a0 m c) (a1 m c) (a2 m c) (a3 m c) (a4 m c) := (host3_v52 (W5 m ρ c)).trans (lin2_W5 m ρ c)
theorem sw_W6 : W6 m ρ c (Proc.devRef .tc main_v30)
    = shapeCast S50000x1 (Cert.ReferenceIdeal.Read.val_main_v101 (F := Ideal) (a1 m c)) shapeCasts_S50000_S50000x1 := (host3_v30 (W5 m ρ c)).trans (sw_W5 m ρ c)
/-- The second layer's neighbour sum. -/
theorem agg2_W6 : W6 m ρ c (Proc.devRef .tc main_v70)
    = Cert.ReferenceIdeal.Read.val_main_v100 (F := Ideal) (a0 m c) (a1 m c) (a2 m c) (a3 m c) (a4 m c) :=
  host3_agg (W5 m ρ c) _ _ _ _ _ (lin2_W5 m ρ c) (src_W5 m ρ c) (dst_W5 m ρ c) (ew_W5 m ρ c)
/-- The second layer's bias, as a row. -/
theorem bias2_W6 : W6 m ρ c (Proc.devRef .tc main_v71) = shapeCast S1x128 (a5 m c) shapeCasts_S128_S1x128 :=
  (host3_bias (W5 m ρ c)).trans (congrArg (shapeCast S1x128 · shapeCasts_S128_S1x128) (arg5_W5 m ρ c))

/-! ### The last boundary: the result -/

/-- After region 3 the result array holds the reference's last stage of the six argument arrays. -/
theorem result_eq : W7 m ρ c (Proc.devRef .tc main_v72)
    = Cert.ReferenceIdeal.Read.val_main_v108 (F := Ideal) (a0 m c) (a1 m c) (a2 m c) (a3 m c) (a4 m c) (a5 m c) := by
  refine (W7_arr m ρ c 4).trans ?_
  refine (Combine2.array_eq (V6 m ρ) c).trans ?_
  exact layer2_eq (a0 m c) (a1 m c) (a2 m c) (a4 m c) (a3 m c) (a5 m c) _ _ _ _ (lin2_W6 m ρ c) (agg2_W6 m ρ c) (bias2_W6 m ρ c) (sw_W6 m ρ c)

end Cert.KernelIdeal.Values

end
-- ==== Proof.lean ====
/-
  A two-layer graph convolution on 50000 nodes, 128 features and 1.6 million edges: per layer, a linear map of the node
  features, a neighbour sum over the edges weighted by the symmetric degree normalisation, the node's own transformed
  feature weighted by its self-loop weight, a bias, and after the first layer a clamp at zero.

  The kernel program computes the linear maps and the combining steps in four kernel regions, each tiling the 50000
  rows in ten blocks of 5000, and leaves the degree counts, the per-edge gathers and the scatter-adds to host
  operations; the reference does everything by host operations. Over the extended reals the two agree entry by entry:
  a region's matrix unit is the same sum over the contracted axis as the reference's dot product (the narrowing casts
  are the identity there and the accumulator starts at zero), the combining step adds the same three terms in the same
  grouping `(s + h·w) + b`, and every host operation around the regions is literally the reference's, applied to
  arguments already shown equal. No law of the extended reals beyond `0 + x = x` is used, so the precondition is never
  opened.

  The three frames: the kernel programs' are the generated frame certificates; the reference's is its generated run
  with the result dropped. The idealization rewrote nothing, so `preserves` is trivial.
-/
import proofs.«138615_j66597762891973_1_alg».proof.Defs
import proofs.«138615_j66597762891973_1_alg».proof.Proof.Gen.Kernel
import proofs.«138615_j66597762891973_1_alg».proof.Proof.Gen.Kernel.Frame
import proofs.«138615_j66597762891973_1_alg».proof.Proof.Gen.KernelIdeal
import proofs.«138615_j66597762891973_1_alg».proof.Proof.Gen.KernelIdeal.Frame
import proofs.«138615_j66597762891973_1_alg».proof.Proof.Gen.ReferenceIdeal
import proofs.«138615_j66597762891973_1_alg».proof.Proof.Gen.ReferenceIdeal.Run
import proofs.«138615_j66597762891973_1_alg».proof.Proof.Gen.ReferenceIdeal.Read
import proofs.«138615_j66597762891973_1_alg».proof.Proof.Gen.Pre_finite_inputs
import proofs.«138615_j66597762891973_1_alg».proof.Proof.KernelRun
import proofs.«138615_j66597762891973_1_alg».proof.Proof.Values
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's last stage of the argument arrays: the kernel program
    by the boundary-by-boundary identification of its buffers with the reference's stages, the reference by its own
    run; the argument arrays agree by hypothesis. -/
theorem algebraic : Cert.algebraic_KernelIdeal_ReferenceIdeal := by
  intro m ρ m' ρ' _ hagree
  refine ⟨fun c => Cert.KernelIdeal.Gen.W7 m ρ c (Proc.devRef .tc Cert.KernelIdeal.main_v72),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1,
    (hagree c).2.2.2.2.1, (hagree c).2.2.2.2.2]
  exact (Cert.KernelIdeal.Values.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
